-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1 : Shape := ⟨1, ![1]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : FVec F S1 .f32) (main_arg2 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S100000x128 : Shape := ⟨2, ![100000, 128]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S10000x128 : Shape := ⟨2, ![10000, 128]⟩
abbrev S10000x1 : Shape := ⟨2, ![10000, 1]⟩
abbrev S10000 : Shape := ⟨1, ![10000]⟩
abbrev S1x100000 : Shape := ⟨2, ![1, 100000]⟩
abbrev S1x1 : Shape := ⟨2, ![1, 1]⟩

abbrev nBuf : Space → Nat
  | .hbm => 45
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1, .f32⟩
  | .hbm, ⟨2, _⟩ => ⟨S2x1600000, .i32⟩
  | .hbm, ⟨3, _⟩ => ⟨S100000, .i32⟩
  | .hbm, ⟨4, _⟩ => ⟨S1x1600000, .i32⟩
  | .hbm, ⟨5, _⟩ => ⟨S1600000, .i32⟩
  | .hbm, ⟨6, _⟩ => ⟨S1700000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S_, .i32⟩
  | .hbm, ⟨11, _⟩ => ⟨S1700000, .i32⟩
  | .hbm, ⟨12, _⟩ => ⟨S1700000, .i1⟩
  | .hbm, ⟨13, _⟩ => ⟨S_, .i32⟩
  | .hbm, ⟨14, _⟩ => ⟨S1700000, .i32⟩
  | .hbm, ⟨15, _⟩ => ⟨S1700000, .i32⟩
  | .hbm, ⟨16, _⟩ => ⟨S1700000, .i32⟩
  | .hbm, ⟨17, _⟩ => ⟨S1700000x1, .i32⟩
  | .hbm, ⟨18, _⟩ => ⟨S1700000x128, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000x128, .f32⟩
  | .hbm, ⟨28, _⟩ => ⟨S1700000x1, .f32⟩
  | .hbm, ⟨29, _⟩ => ⟨S1700000, .f32⟩
  | .hbm, ⟨30, _⟩ => ⟨S_, .f32⟩
  | .hbm, ⟨31, _⟩ => ⟨S100000, .f32⟩
  | .hbm, ⟨32, _⟩ => ⟨S1700000x1, .i32⟩
  | .hbm, ⟨33, _⟩ => ⟨S100000, .f32⟩
  | .hbm, ⟨34, _⟩ => ⟨S_, .f32⟩
  | .hbm, ⟨35, _⟩ => ⟨S1700000, .f32⟩
  | .hbm, ⟨36, _⟩ => ⟨S_, .f32⟩
  | .hbm, ⟨37, _⟩ => ⟨S100000, .f32⟩
  | .hbm, ⟨38, _⟩ => ⟨S1700000x1, .i32⟩
  | .hbm, ⟨39, _⟩ => ⟨S100000, .f32⟩
  | .hbm, ⟨40, _⟩ => ⟨S1x100000, .f32⟩
  | .hbm, ⟨41, _⟩ => ⟨S1x100000, .f32⟩
  | .hbm, ⟨42, _⟩ => ⟨S1x1, .f32⟩
  | .hbm, ⟨43, _⟩ => ⟨S1x100000, .f32⟩
  | .hbm, ⟨44, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S1x100000, .f32⟩
  | .local _ .vmem, ⟨7, _⟩ => ⟨S1x100000, .f32⟩
  | .local _ .vmem, ⟨8, _⟩ => ⟨S1x1, .f32⟩
  | .local _ .vmem, ⟨9, _⟩ => ⟨S1x100000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![170], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x100000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x100000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S1700000x1_S1700000 : S1700000x1.ShapeCasts S1700000
  bcast_S_S100000 : S_.BroadcastsInDim S100000 (![] : Fin 0 → Fin S100000.rank)
  shapeCasts_S100000_S1x100000 : S100000.ShapeCasts S1x100000
  shapeCasts_S1_S1x1 : S1.ShapeCasts S1x1
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x100000 : S1x1.Broadcasts S1x100000
  shapeCasts_S1x100000_S100000 : S1x100000.ShapeCasts S100000
  gather_S100000x128_S1700000x1_S1700000x128_1_0_n_n_0_1_1128_wf : GatherDims.WF S100000x128 S1700000x1 S1700000x128 [1] [0] [] [0] [] 1 ![1, 128]
  scatter_S100000_S1700000x1_S1700000_n_0_0_1_wf : ScatterDims.WF S100000 S1700000x1 S1700000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1700000x128.size a
  hwx0_0 : ∀ i : grid0.Coords, EltTy.bits .f32 = 32 ∨ (Rect.block (s := S1700000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S1700000x128.size a
  hwx0_1 : ∀ i : grid0.Coords, EltTy.bits .f32 = 32 ∨ (Rect.block (s := S1700000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S1700000x1.size a
  hwx0_2 : ∀ i : grid0.Coords, EltTy.bits .f32 = 32 ∨ (Rect.block (s := S1700000x1) S10000x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x100000.size a ≤ S1x100000.size a
  hwx1_0 : ∀ i : grid1.Coords, EltTy.bits .f32 = 32 ∨ (Rect.block (s := S1x100000) S1x100000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100000.size a ≤ S1x100000.size a
  hwx1_1 : ∀ i : grid1.Coords, EltTy.bits .f32 = 32 ∨ (Rect.block (s := S1x100000) S1x100000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x100000.size a ≤ S1x100000.size a
  hwx1_3 : ∀ i : grid1.Coords, EltTy.bits .f32 = 32 ∨ (Rect.block (s := S1x100000) S1x100000.size (cc1_transform_3 i) (hinb1_3 i)).WholeWords (EltTy.packing .f32)

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S1x100000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x100000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x100000.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S100000x1 : Shape := ⟨2, ![100000, 1]⟩
abbrev S1700000x1 : Shape := ⟨2, ![1700000, 1]⟩
abbrev S1700000x128 : Shape := ⟨2, ![1700000, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1, .f32⟩
  | .hbm, ⟨2, _⟩ => ⟨S2x1600000, .i32⟩
  | .hbm, ⟨3, _⟩ => ⟨S100000, .i32⟩
  | .hbm, ⟨4, _⟩ => ⟨S1x1600000, .i32⟩
  | .hbm, ⟨5, _⟩ => ⟨S1600000, .i32⟩
  | .hbm, ⟨6, _⟩ => ⟨S1700000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S100000x128, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S1700000x128, .f32⟩
  | .hbm, ⟨39, _⟩ => ⟨S_, .f32⟩
  | .hbm, ⟨40, _⟩ => ⟨S1700000, .f32⟩
  | .hbm, ⟨41, _⟩ => ⟨S_, .f32⟩
  | .hbm, ⟨42, _⟩ => ⟨S100000, .f32⟩
  | .hbm, ⟨43, _⟩ => ⟨S1700000x1, .i32⟩
  | .hbm, ⟨44, _⟩ => ⟨S100000, .f32⟩
  | .hbm, ⟨45, _⟩ => ⟨S_, .f32⟩
  | .hbm, ⟨46, _⟩ => ⟨S1700000, .f32⟩
  | .hbm, ⟨47, _⟩ => ⟨S_, .f32⟩
  | .hbm, ⟨48, _⟩ => ⟨S100000, .f32⟩
  | .hbm, ⟨49, _⟩ => ⟨S1700000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000, .f32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  reducesTo_S1700000x128_S1700000_d1 : S1700000x128.ReducesTo [1] S1700000
  bcast_S_S100000 : S_.BroadcastsInDim S100000 (![] : Fin 0 → Fin S100000.rank)
  bcast_S1_S100000_0 : S1.BroadcastsInDim S100000 (![0] : Fin 1 → Fin S100000.rank)
  gather_S100000x128_S1700000x1_S1700000x128_1_0_n_n_0_1_1128_wf : GatherDims.WF S100000x128 S1700000x1 S1700000x128 [1] [0] [] [0] [] 1 ![1, 128]
  scatter_S100000_S1700000x1_S1700000_n_0_0_1_wf : ScatterDims.WF S100000 S1700000x1 S1700000 [] [0] [0] 1

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf

class Facts : Prop extends Facts₀ where

variable [Facts]
-- ==== Proof.FiniteInputs.lean ====
/-
  What the precondition gives: every entry of the feature table is a real number.

  The printed predicate is `all (|alpha| < +∞) ∧ all (|temperature| < +∞)`; an extended real whose absolute
  value `max x (−x)` is below `+∞` is neither infinity, so it is the reading of a real.
-/
import proofs.«118151_j824633721278_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine

noncomputable section

namespace Cert.EdgeCosine

open Idealize.ShloMosaic Idealize.ShloMosaic.ValueIdx Cert.Pre_finite_inputs Cert.Pre_finite_inputs.Gen

/-- The infinity word denotes `+∞`. -/
theorem ofBits_inf : Ideal.ofBits .f32 0x7F800000#32 = ⊤ := by
  simp [Ideal.ofBits, Ideal.ieee]

instance : Subsingleton Cert.Pre_finite_inputs.S_.Idx := ⟨fun a b => funext fun d => d.elim0⟩

/-- An extended real with `|x| < +∞` is a real. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- Under the precondition every entry of the `[100000, 128]` table is a real. -/
theorem table_real (x0 : FVec Ideal Cert.Pre_finite_inputs.S100000x128 .f32) (x1 : FVec Ideal Cert.Pre_finite_inputs.S1 .f32)
    (x2 : IVec Cert.Pre_finite_inputs.S2x1600000 32)
    (h : Cert.Pre_finite_inputs.fn (F := Ideal) x0 x1 x2 = fun _ => 1#1) (i : Cert.Pre_finite_inputs.S100000x128.Idx) :
    ∃ r : ℝ, x0 i = (r : EReal) := by
  have h0 := congrFun h ix0
  dsimp only [Cert.Pre_finite_inputs.fn] at h0
  have h1 := (IntOp.andi_eq_one.1 h0).1
  have h2 := Host.reduce_andi_all _ _ _ _ _ h1 i
  refine real_of_abs_lt_top (x0 i) ?_
  rw [← ofBits_inf]
  exact h2

end Cert.EdgeCosine

end
-- ==== Proof.Spec.lean ====
/-
  What the kernel computes, as functions of arrays read index by index.

  `rowCos a b` is the clamped cosine of two rows: their dot product over the product of their clamped norms.
  `edgeSim A B` is the `[E, 1]` column whose entry `e` is `rowCos` of row `e` of `A` and row `e` of `B`.
  `gate s c τ` is the `[1, N]` row whose entry `n` is the logistic of `τ · (sₙ / max cₙ 1)`: the mean of the
  similarities landing at node `n` (their sum over their count, the count kept at least one), scaled by the
  temperature and squashed.
-/
import Idealize.ShloMosaic.PureOps.Ideal
import Idealize.ShloMosaic.Lib.ValueIdx

noncomputable section

namespace Cert.EdgeCosine

open Idealize.ShloMosaic Idealize.ShloMosaic.ValueIdx
open scoped BigOperators

/-- The clamped cosine of two rows of `D` extended reals. -/
def rowCos {D : Nat} (a b : Fin D → EReal) : EReal :=
  Ideal.div (0 + ∑ k, a k * b k)
    (max (Ideal.sqrt (0 + ∑ k, a k * a k)) (Ideal.ofBits .f32 0x2B8CBCCC#32)
      * max (Ideal.sqrt (0 + ∑ k, b k * b k)) (Ideal.ofBits .f32 0x2B8CBCCC#32))

/-- Row `p` of an `[n, D]` array. -/
def rowOf {n D : Nat} (A : (⟨2, ![n, D]⟩ : Shape).Idx → EReal) (p : Fin n) : Fin D → EReal := fun k => A (ix2 p k)

/-- The column of row-wise clamped cosines of two `[E, D]` arrays. -/
def edgeSim {E D : Nat} (A B : (⟨2, ![E, D]⟩ : Shape).Idx → EReal) : (⟨2, ![E, 1]⟩ : Shape).Idx → EReal :=
  fun j => rowCos (rowOf A ⟨(j 0).val, idx2_lt0 j⟩) (rowOf B ⟨(j 0).val, idx2_lt0 j⟩)

/-- The gate at one node: the logistic of the temperature times the mean similarity. -/
def gateAt (s c τ : EReal) : EReal :=
  Ideal.logistic (τ * Ideal.div s (max c (Ideal.ofBits .f32 0x3F800000#32)))

/-- The gate row over `[1, N]` from the sums, the counts and the `[1, 1]` temperature. -/
def gate {N : Nat} (s c : (⟨2, ![1, N]⟩ : Shape).Idx → EReal) (τ : (⟨2, ![1, 1]⟩ : Shape).Idx → EReal) :
    (⟨2, ![1, N]⟩ : Shape).Idx → EReal :=
  fun j => gateAt (s j) (c j) (τ (ix2 (0 : Fin 1) (0 : Fin 1)))

end Cert.EdgeCosine

end
-- ==== Proof.KernelHost.lean ====
/-
  The host lines of the kernel's program, read back.

  Before the first region the program builds the two index columns (the source and target node of every edge, a
  self-loop appended per node, a negative number wrapped once by the node count) and gathers the rows of the
  feature table they name.  Between the regions it scatter-adds the edge similarities, and a one per edge, onto
  their raw target nodes, and lays the two sums and the temperature out as rows.  After the second region it
  flattens the gate row.  Each buffer a region reads, and the result, is stated as the composed term of the
  launch contents of the three arguments and of the two regions' output arrays.
-/
import proofs.«118151_j824633721278_1_alg».proof.Proof.Gen.KernelIdeal.Frame
import proofs.«118151_j824633721278_1_alg».proof.Proof.Spec
import Idealize.ShloMosaic.Lib.StableHlo.Run

set_option maxRecDepth 16384

noncomputable section

namespace Cert.KernelIdeal.Named

open Cert.KernelIdeal Cert.KernelIdeal.Gen Cert.EdgeCosine
open Idealize.ShloMosaic Idealize.ShloMosaic.TcCoe Idealize.ShloMosaic.StableHlo
open Idealize.SL Idealize.SL.Sem

/-- Row `r` of the edge list flattened, with the node numbers `0 … 99999` appended (the self-loops). -/
def endpoints (r : Nat) (hs : S2x1600000.Slices ![r, 0] S1x1600000)
    (x2 : (⟨S2x1600000, .i32⟩ : BufTy).Contents (Elt Ideal)) : (⟨S1700000, .i32⟩ : BufTy).Contents (Elt Ideal) :=
  concatenate S1700000 0 [⟨S1600000, shapeCast _ (extractStridedSlice S1x1600000 ![r, 0] x2 hs) shapeCasts_S1x1600000_S1600000⟩,
    ⟨S100000, iotaInDim S100000 32 0⟩] concatenates_S1600000_S100000_S1700000_d0

/-- The column of row numbers a gather reads: a negative number wrapped once by the table's row count. -/
def wrapCol (e : (⟨S1700000, .i32⟩ : BufTy).Contents (Elt Ideal)) : (⟨S1700000x1, .i32⟩ : BufTy).Contents (Elt Ideal) :=
  broadcastInDim S1700000x1 ![0] bcast_S1700000_S1700000x1_0
    (select (cmpi .slt e (broadcastInDim S1700000 ![] bcast_S_S1700000 (constantI S_ 32 0#32)))
      (addi e (broadcastInDim S1700000 ![] bcast_S_S1700000 (constantI S_ 32 100000#32))) e)

/-- The rows of the feature table the column names. -/
def gathered (x0 : (⟨S100000x128, .f32⟩ : BufTy).Contents (Elt Ideal)) (e : (⟨S1700000, .i32⟩ : BufTy).Contents (Elt Ideal)) :
    (⟨S1700000x128, .f32⟩ : BufTy).Contents (Elt Ideal) :=
  Host.gather gather_S100000x128_S1700000x1_S1700000x128_1_0_n_n_0_1_1128 x0 (wrapCol e)

/-- An edge quantity summed onto the raw target nodes, from zero. -/
def ontoNodes (tgt : (⟨S1700000, .i32⟩ : BufTy).Contents (Elt Ideal)) (u : (⟨S1700000, .f32⟩ : BufTy).Contents (Elt Ideal)) :
    (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 tgt) u

variable (m : (ℓ : Loc nD τ sig) → Buf (Elt Ideal) ℓ) (ρ : Dev nD → PrngReg)

/-! ## Before the first region -/

theorem src_rows (c : Dev nD) :
    V1 m ρ c main_v13 = gathered (m ((c.tc : Thread nD τ).loc main_arg0))
      (endpoints 0 slices_S2x1600000_S1x1600000_0_0 (m ((c.tc : Thread nD τ).loc main_arg2))) := by
  show StableHlo.after hostOps0 (W0 m ρ c) (Proc.devRef .tc main_v13) = _
  after_results
  rfl

theorem tgt_rows (c : Dev nD) :
    V1 m ρ c main_v20 = gathered (m ((c.tc : Thread nD τ).loc main_arg0))
      (endpoints 1 slices_S2x1600000_S1x1600000_1_0 (m ((c.tc : Thread nD τ).loc main_arg2))) := by
  show StableHlo.after hostOps0 (W0 m ρ c) (Proc.devRef .tc main_v20) = _
  after_results
  rfl

theorem tgt_nodes (c : Dev nD) :
    W1 m ρ c (Proc.devRef .tc main_v6)
      = endpoints 1 slices_S2x1600000_S1x1600000_1_0 (m ((c.tc : Thread nD τ).loc main_arg2)) := by
  show StableHlo.after hostOps0 (W0 m ρ c) (Proc.devRef .tc main_v6) = _
  after_results
  rfl

theorem temp_kept (c : Dev nD) :
    W1 m ρ c (Proc.devRef .tc main_arg1) = m ((c.tc : Thread nD τ).loc main_arg1) := by
  show StableHlo.after hostOps0 (W0 m ρ c) (Proc.devRef .tc main_arg1) = _
  after_results

/-! ## Between the regions -/

theorem sums_row (c : Dev nD) :
    V3 m ρ c main_v30 = shapeCast S1x100000
      (ontoNodes (W2 m ρ c (Proc.devRef .tc main_v6))
        (shapeCast S1700000 (W2 m ρ c (Proc.devRef .tc main_v21)) shapeCasts_S1700000x1_S1700000))
      shapeCasts_S100000_S1x100000 := by
  show StableHlo.after hostOps1 (W2 m ρ c) (Proc.devRef .tc main_v30) = _
  after_results
  rfl

theorem counts_row (c : Dev nD) :
    V3 m ρ c main_v31 = shapeCast S1x100000
      (ontoNodes (W2 m ρ c (Proc.devRef .tc main_v6))
        (broadcastInDim S1700000 ![] bcast_S_S1700000 (constant (F := Ideal) S_ .f32 0x3F800000#32)))
      shapeCasts_S100000_S1x100000 := by
  show StableHlo.after hostOps1 (W2 m ρ c) (Proc.devRef .tc main_v31) = _
  after_results
  rfl

theorem temp_row (c : Dev nD) :
    V3 m ρ c main_v32 = shapeCast S1x1 (W2 m ρ c (Proc.devRef .tc main_arg1)) shapeCasts_S1_S1x1 := by
  show StableHlo.after hostOps1 (W2 m ρ c) (Proc.devRef .tc main_v32) = _
  after_results
  rfl

/-- The first region leaves the target column and the temperature as it found them. -/
theorem tgt_nodes_kept (c : Dev nD) : W2 m ρ c (Proc.devRef .tc main_v6) = W1 m ρ c (Proc.devRef .tc main_v6) :=
  W2_of_ne m ρ c main_v6 (by decide)
theorem temp_kept2 (c : Dev nD) : W2 m ρ c (Proc.devRef .tc main_arg1) = W1 m ρ c (Proc.devRef .tc main_arg1) :=
  W2_of_ne m ρ c main_arg1 (by decide)
/-- Its output column is what its write-backs leave. -/
theorem sim_col (c : Dev nD) : W2 m ρ c (Proc.devRef .tc main_v21) = (dat0 (V1 m ρ) c).arrAt 2 cfg0.N :=
  W2_arr m ρ c 2

/-! ## After the second region -/

theorem result_flat (c : Dev nD) :
    W5 m ρ c (Proc.devRef .tc main_v34)
      = shapeCast S100000 (W4 m ρ c (Proc.devRef .tc main_v33)) shapeCasts_S1x100000_S100000 := by
  show StableHlo.after hostOps2 (W4 m ρ c) (Proc.devRef .tc main_v34) = _
  after_results
  rfl

theorem gate_row (c : Dev nD) : W4 m ρ c (Proc.devRef .tc main_v33) = (dat1 (V3 m ρ) c).arrAt 3 cfg1.N :=
  W4_arr m ρ c 3

end Cert.KernelIdeal.Named

end
-- ==== Proof.EdgePayload.lean ====
/-
  The first kernel body's arithmetic, read at an index.

  The body loads a `[10000, 128]` block of source rows and one of target rows and stores the `[10000, 1]`
  column whose entry `p` is the clamped cosine of source row `p` and target row `p`: three lane sums (the two
  squared norms and the dot product), two square roots clamped from below, one quotient.
-/
import proofs.«118151_j824633721278_1_alg».proof.Proof.Gen.KernelIdeal.Skeleton
import proofs.«118151_j824633721278_1_alg».proof.Proof.Spec
import Idealize.ShloMosaic.Lib.Pipeline.Value
import Idealize.ShloMosaic.Lib.ValueIdx
import Idealize.ShloMosaic.PureOps.Ideal.Laws

noncomputable section

namespace Cert.KernelIdeal.Named

open Cert.KernelIdeal Cert.KernelIdeal.Gen Cert.EdgeCosine
open Idealize.ShloMosaic Idealize.ShloMosaic.ValueIdx
open scoped BigOperators

/-- A vector cast to a one-column matrix reads, at `(p, 0)`, the vector at `p`. -/
theorem shapeCast_col_apply {α : Type} {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 ⟨(j 0).val, idx2_lt0 j⟩) :=
  shapeCast_apply x h _ _ (by
    rw [Shape.rowMajor_val_two, Shape.rowMajor_val_one]
    show (j 0).val = (j 0).val * 1 + (j 1).val
    have := idx2_lt1 j; omega)

/-- A sum along the lanes of a `[10000, 128]` block, read at row `r`. -/
theorem laneSum_apply (v : FVec Ideal S10000x128 .f32) (r : Fin 10000) :
    multiReduction .add [1] S10000 v 0x00000000#32 reduces_S10000x128_S10000 (.inl rfl) rfl (ix1 r)
      = ∑ k : Fin 128, v (ix2 r k) := by
  refine (Ideal.multiReduction_add_single v 0x00000000#32 reduces_S10000x128_S10000 (.inl rfl) rfl (ix1 r)).trans ?_
  exact Finset.sum_congr rfl fun k _ =>
    congrArg v (funext fun a => Fin.ext (by match a with | ⟨0, _⟩ => rfl | ⟨1, _⟩ => rfl))

/-- THE BODY'S STORE at `(p, 0)`: the clamped cosine of row `p` of the two loaded blocks. -/
theorem edgePay_apply (x0 x1 : Vec Ideal S10000x128 .f32) (j : S10000x1.Idx) :
    k0_pay1 (F := Ideal) x0 x1 j
      = rowCos (rowOf x0 ⟨(j 0).val, idx2_lt0 j⟩) (rowOf x1 ⟨(j 0).val, idx2_lt0 j⟩) := by
  unfold k0_pay1
  simp only [shapeCast_self]
  show Ideal.div (shapeCast S10000x1 _ shapeCasts_S10000_S10000x1 j)
      (max (Ideal.sqrt (shapeCast S10000x1 _ shapeCasts_S10000_S10000x1 j)) (Ideal.ofBits .f32 0x2B8CBCCC#32)
        * max (Ideal.sqrt (shapeCast S10000x1 _ shapeCasts_S10000_S10000x1 j)) (Ideal.ofBits .f32 0x2B8CBCCC#32)) = _
  rw [shapeCast_col_apply, shapeCast_col_apply, shapeCast_col_apply, laneSum_apply, laneSum_apply, laneSum_apply]
  unfold rowCos rowOf
  simp only [zero_add]
  rfl

end Cert.KernelIdeal.Named

end
-- ==== Proof.EdgeRegion.lean ====
/-
  The first region's output array, as one function of its two input arrays.

  The grid has 170 points; point `t` reads rows `10000·t … 10000·t + 9999` of the gathered source and target
  arrays and writes the same rows of the `[1700000, 1]` output column.  Entry `p` of the block is the clamped
  cosine of row `p` of the two blocks, which are rows `10000·t + p` of the arrays; the 170 blocks tile the
  column, so the whole column is `edgeSim` of the two arrays.
-/
import proofs.«118151_j824633721278_1_alg».proof.Proof.Gen.KernelIdeal.Frame
import proofs.«118151_j824633721278_1_alg».proof.Proof.EdgePayload
import Idealize.ShloMosaic.Lib.Pipeline.Value

set_option maxRecDepth 16384

noncomputable section

namespace Cert.KernelIdeal.Named

open Cert.KernelIdeal Cert.KernelIdeal.Gen Cert.EdgeCosine
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The gathered source rows and target rows as the region finds them, and the two blocks point `t` loads. -/
abbrev srcArr (c : Dev nD) : Vec Ideal S1700000x128 .f32 := V c main_v13
abbrev tgtArr (c : Dev nD) : Vec Ideal S1700000x128 .f32 := V c main_v20
abbrev srcBlk (c : Dev nD) (t : Fin cfg0.N) : Vec Ideal S10000x128 .f32 := iblk0 V c 0 t
abbrev tgtBlk (c : Dev nD) (t : Fin cfg0.N) : Vec Ideal S10000x128 .f32 := iblk0 V c 1 t

/-- The printed index maps over the grid: at point `t` every window's block is block `t` along the rows, block `0`
    along the columns. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of the source block at point `t` is row `10000·t + p` of the source array. -/
theorem srcBlk_row (c : Dev nD) (t : Fin cfg0.N) (p : Fin 10000) (q : Fin 1700000) (hq : q.val = t.val * 10000 + p.val) :
    rowOf (srcBlk V c t) p = rowOf (srcArr V c) q := by
  obtain ⟨e0, e1, -, -, -, -⟩ := idx_facts0 t
  funext k
  show V c main_v13 (((cfg0.win 0).blk t).view.emb (ix2 p k)) = V c main_v13 (ix2 q k)
  refine congrArg _ (funext fun a => Fin.ext ?_)
  match a with
  | ⟨0, _⟩ => show win0_0.index t (0 : Fin 2) * 10000 + 1 * p.val = q.val; omega
  | ⟨1, _⟩ => show win0_0.index t (1 : Fin 2) * 128 + 1 * k.val = k.val; omega

/-- Row `p` of the target block at point `t` is row `10000·t + p` of the target array. -/
theorem tgtBlk_row (c : Dev nD) (t : Fin cfg0.N) (p : Fin 10000) (q : Fin 1700000) (hq : q.val = t.val * 10000 + p.val) :
    rowOf (tgtBlk V c t) p = rowOf (tgtArr V c) q := by
  obtain ⟨-, -, e0, e1, -, -⟩ := idx_facts0 t
  funext k
  show V c main_v20 (((cfg0.win 1).blk t).view.emb (ix2 p k)) = V c main_v20 (ix2 q k)
  refine congrArg _ (funext fun a => Fin.ext ?_)
  match a with
  | ⟨0, _⟩ => show win0_1.index t (0 : Fin 2) * 10000 + 1 * p.val = q.val; omega
  | ⟨1, _⟩ => show win0_1.index t (1 : Fin 2) * 128 + 1 * k.val = k.val; omega

/-- WHAT POINT `t` WRITES BACK is block `t` of the column of clamped cosines. -/
theorem flushed0_eq (c : Dev nD) (t : Fin cfg0.N) :
    (dat0 V c).flushed 2 t
      = ((cfg0.win 2).blk t).view.read (Elt Ideal) (edgeSim (E := 1700000) (D := 128) (srcArr V c) (tgtArr V c)) := by
  show (cfg0.win 2).cut (grid0.coords t) ((dat0 V c).after 2 t) = _
  rw [after0_2]
  unfold out0_2
  rw [View.canon_unit_zero hz2]
  simp only [View.ld_unit_zero (S := S10000x128) hz2]
  obtain ⟨-, -, -, -, e0, e1⟩ := idx_facts0 t
  funext j
  refine (edgePay_apply (srcBlk V c t) (tgtBlk V c t) j).trans ?_
  show _ = edgeSim (E := 1700000) (D := 128) (srcArr V c) (tgtArr V c) (((cfg0.win 2).blk t).view.emb j)
  unfold edgeSim
  have hj : (j 0).val < 10000 := idx2_lt0 j
  have hq : ((((cfg0.win 2).blk t).view.emb j) 0).val = t.val * 10000 + (j 0).val := by
    show win0_2.index t (0 : Fin 2) * 10000 + 1 * (j 0).val = _; omega
  rw [srcBlk_row V c t ⟨(j 0).val, hj⟩ ⟨((((cfg0.win 2).blk t).view.emb j) 0).val, idx2_lt0 _⟩ hq,
    tgtBlk_row V c t ⟨(j 0).val, hj⟩ ⟨((((cfg0.win 2).blk t).view.emb j) 0).val, idx2_lt0 _⟩ hq]

/-- An index of the column is in point `t`'s block iff each coordinate is in the block's range on its axis. -/
theorem mem_blk0 (t : Fin cfg0.N) (i : S1700000x1.Idx) :
    i ∈ ((cfg0.win 2).blk t).view.set ↔ ∀ a : Fin 2, win0_2.index t a * S10000x1.size a ≤ (i a).val
      ∧ (i a).val < win0_2.index t a * S10000x1.size a + S10000x1.size a := by
  show i ∈ ((View.whole main_v21).slice (win0_2.rect t)).set ↔ _
  rw [View.set_slice_whole, Rect.mem_set_unit]
  exact Iff.rfl

/-- Every index of the column is in some point's block: row `r` is in block `r / 10000`. -/
theorem cover0 (i : S1700000x1.Idx) :
    ∃ t : Fin cfg0.N, (cfg0.win 2).flush t = true ∧ i ∈ ((cfg0.win 2).blk t).view.set := by
  have hi0 : (i 0).val < 1700000 := idx2_lt0 i
  have hi1 : (i 1).val < 1 := idx2_lt1 i
  have hN : (i 0).val / 10000 < cfg0.N := by
    show (i 0).val / 10000 < grid0.N
    rw [N_0]; omega
  refine ⟨⟨(i 0).val / 10000, hN⟩, flush0_2 _, ?_⟩
  obtain ⟨-, -, -, -, e0, e1⟩ := idx_facts0 ⟨(i 0).val / 10000, hN⟩
  rw [mem_blk0]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_2.index ⟨(i 0).val / 10000, hN⟩ (1 : Fin 2) * 1 ≤ (i 1).val
      ∧ (i 1).val < win0_2.index ⟨(i 0).val / 10000, hN⟩ (1 : Fin 2) * 1 + 1
    rw [e1]; omega

/-- THE OUTPUT COLUMN after the region: the clamped cosine of each pair of gathered rows. -/
theorem edge_final (c : Dev nD) :
    (dat0 V c).arrAt 2 cfg0.N = edgeSim (E := 1700000) (D := 128) (srcArr V c) (tgtArr V c) :=
  (dat0 V c).arrAt_eq_of_cover 2 _ (fun t _ => flushed0_eq V c t) cover0

end Cert.KernelIdeal.Named

end
-- ==== Proof.GateRegion.lean ====
/-
  The second kernel body read at an index, and the second region's output array as one function of its inputs.

  The body loads the `[1, 100000]` rows of similarity sums and of counts and the `[1, 1]` temperature, and stores
  the row whose entry `n` is the logistic of the temperature times `sumₙ / max countₙ 1`.  The grid has one
  point and every window's block is its whole array, so the output row is `gate` of the three arrays.
-/
import proofs.«118151_j824633721278_1_alg».proof.Proof.Gen.KernelIdeal.Frame
import proofs.«118151_j824633721278_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Named

open Cert.KernelIdeal Cert.KernelIdeal.Gen Cert.EdgeCosine
open Idealize.ShloMosaic Idealize.ShloMosaic.TcCoe Idealize.ShloMosaic.ValueIdx
open Idealize.SL Idealize.SL.Sem
open Idealize.ShloMosaic.Pipeline (Dat Cfg Window)

/-- THE BODY'S STORE at `(0, n)`: the gate of the sum, the count and the temperature. -/
theorem gatePay_apply (x0 x1 : Vec Ideal S1x100000 .f32) (x2 : Vec Ideal S1x1 .f32) (j : S1x100000.Idx) :
    k1_pay1 (F := Ideal) x0 x1 x2 j = gate (N := 100000) x0 x1 x2 j := by
  unfold k1_pay1
  simp only [shapeCast_self]
  show Ideal.logistic (broadcastTo S1x100000 x2 broadcasts_S1x1_S1x100000 j
      * Ideal.div (x0 j) (max (x1 j) (Ideal.ofBits .f32 0x3F800000#32))) = _
  rw [broadcastTo_apply x2 broadcasts_S1x1_S1x100000 j (ix2 (0 : Fin 1) (0 : Fin 1)) (fun a => by
    match a with
    | ⟨0, _⟩ => show (0 : Nat) = if (1 : Nat) = 1 then 0 else _; rw [if_pos rfl]
    | ⟨1, _⟩ => show (0 : Nat) = if (1 : Nat) = 1 then 0 else _; rw [if_pos rfl])]
  rfl

variable (V : (c : Dev nD) → (b : Ref sig .tc) → Buf (Elt Ideal) ((c : Thread nD τ).loc b))

theorem hz2' : (![0, 0] : Fin 2 → Nat) = fun _ => 0 := funext fun a => by fin_cases a <;> rfl

/-- The three input arrays as the region finds them, and the blocks its one point loads. -/
abbrev sumArr (c : Dev nD) : Vec Ideal S1x100000 .f32 := V c main_v30
abbrev cntArr (c : Dev nD) : Vec Ideal S1x100000 .f32 := V c main_v31
abbrev tmpArr (c : Dev nD) : Vec Ideal S1x1 .f32 := V c main_v32
abbrev sumBlk (c : Dev nD) (t : Fin cfg1.N) : Vec Ideal S1x100000 .f32 := iblk1 V c 0 t
abbrev cntBlk (c : Dev nD) (t : Fin cfg1.N) : Vec Ideal S1x100000 .f32 := iblk1 V c 1 t
abbrev tmpBlk (c : Dev nD) (t : Fin cfg1.N) : Vec Ideal S1x1 .f32 := iblk1 V c 2 t

/-- The printed index maps over the grid: every window's block is block `(0, 0)`. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem sumBlk_apply (c : Dev nD) (t : Fin cfg1.N) (j : S1x100000.Idx) :
    sumBlk V c t j = sumArr V c (((cfg1.win 3).blk t).view.emb j) := by
  obtain ⟨a0, a1, -, -, -, -, d0, d1⟩ := idx_facts1 t
  show V c main_v30 (((cfg1.win 0).blk t).view.emb j) = V c main_v30 (((cfg1.win 3).blk t).view.emb j)
  refine congrArg _ (funext fun a => Fin.ext ?_)
  match a with
  | ⟨0, _⟩ => show win1_0.index t (0 : Fin 2) * 1 + 1 * (j 0).val = win1_3.index t (0 : Fin 2) * 1 + 1 * (j 0).val; omega
  | ⟨1, _⟩ => show win1_0.index t (1 : Fin 2) * 100000 + 1 * (j 1).val = win1_3.index t (1 : Fin 2) * 100000 + 1 * (j 1).val; omega

theorem cntBlk_apply (c : Dev nD) (t : Fin cfg1.N) (j : S1x100000.Idx) :
    cntBlk V c t j = cntArr V c (((cfg1.win 3).blk t).view.emb j) := by
  obtain ⟨-, -, a0, a1, -, -, d0, d1⟩ := idx_facts1 t
  show V c main_v31 (((cfg1.win 1).blk t).view.emb j) = V c main_v31 (((cfg1.win 3).blk t).view.emb j)
  refine congrArg _ (funext fun a => Fin.ext ?_)
  match a with
  | ⟨0, _⟩ => show win1_1.index t (0 : Fin 2) * 1 + 1 * (j 0).val = win1_3.index t (0 : Fin 2) * 1 + 1 * (j 0).val; omega
  | ⟨1, _⟩ => show win1_1.index t (1 : Fin 2) * 100000 + 1 * (j 1).val = win1_3.index t (1 : Fin 2) * 100000 + 1 * (j 1).val; omega

theorem tmpBlk_apply (c : Dev nD) (t : Fin cfg1.N) :
    tmpBlk V c t (ix2 (0 : Fin 1) (0 : Fin 1)) = tmpArr V c (ix2 (0 : Fin 1) (0 : Fin 1)) := by
  obtain ⟨-, -, -, -, a0, a1, -, -⟩ := idx_facts1 t
  show V c main_v32 (((cfg1.win 2).blk t).view.emb (ix2 (0 : Fin 1) (0 : Fin 1))) = V c main_v32 (ix2 (0 : Fin 1) (0 : Fin 1))
  refine congrArg _ (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- WHAT THE ONE POINT WRITES BACK is the gate row of the three arrays. -/
theorem flushed1_eq (c : Dev nD) (t : Fin cfg1.N) :
    (dat1 V c).flushed 3 t
      = ((cfg1.win 3).blk t).view.read (Elt Ideal) (gate (N := 100000) (sumArr V c) (cntArr V c) (tmpArr V c)) := by
  show (cfg1.win 3).cut (grid1.coords t) ((dat1 V c).after 3 t) = _
  rw [after1_3]
  unfold out1_3
  rw [View.canon_unit_zero hz2']
  simp only [View.ld_unit_zero (S := S1x100000) hz2', View.ld_unit_zero (S := S1x1) hz2']
  funext j
  refine (gatePay_apply (sumBlk V c t) (cntBlk V c t) (tmpBlk V c t) j).trans ?_
  show _ = gate (N := 100000) (sumArr V c) (cntArr V c) (tmpArr V c) (((cfg1.win 3).blk t).view.emb j)
  unfold gate
  rw [sumBlk_apply, cntBlk_apply, tmpBlk_apply]

/-- An index of the row is in the point's block iff each coordinate is in the block's range on its axis. -/
theorem mem_blk1 (t : Fin cfg1.N) (i : S1x100000.Idx) :
    i ∈ ((cfg1.win 3).blk t).view.set ↔ ∀ a : Fin 2, win1_3.index t a * S1x100000.size a ≤ (i a).val
      ∧ (i a).val < win1_3.index t a * S1x100000.size a + S1x100000.size a := by
  show i ∈ ((View.whole main_v33).slice (win1_3.rect t)).set ↔ _
  rw [View.set_slice_whole, Rect.mem_set_unit]
  exact Iff.rfl

/-- Every index of the row is in the one point's block. -/
theorem cover1 (i : S1x100000.Idx) :
    ∃ t : Fin cfg1.N, (cfg1.win 3).flush t = true ∧ i ∈ ((cfg1.win 3).blk t).view.set := by
  have hi0 : (i 0).val < 1 := idx2_lt0 i
  have hi1 : (i 1).val < 100000 := idx2_lt1 i
  refine ⟨t1_0, flush1_3 _, ?_⟩
  obtain ⟨-, -, -, -, -, -, e0, e1⟩ := idx_facts1 t1_0
  rw [mem_blk1]
  intro a
  match a with
  | ⟨0, _⟩ =>
    show win1_3.index t1_0 (0 : Fin 2) * 1 ≤ (i 0).val ∧ (i 0).val < win1_3.index t1_0 (0 : Fin 2) * 1 + 1
    rw [e0]; omega
  | ⟨1, _⟩ =>
    show win1_3.index t1_0 (1 : Fin 2) * 100000 ≤ (i 1).val ∧ (i 1).val < win1_3.index t1_0 (1 : Fin 2) * 100000 + 100000
    rw [e1]; omega

/-- THE OUTPUT ROW after the region: the gate of the sums, the counts and the temperature. -/
theorem gate_final (c : Dev nD) :
    (dat1 V c).arrAt 3 cfg1.N = gate (N := 100000) (sumArr V c) (cntArr V c) (tmpArr V c) :=
  (dat1 V c).arrAt_eq_of_cover 3 _ (fun t _ => flushed1_eq V c t) cover1

end Cert.KernelIdeal.Named

end
-- ==== Proof.KernelValue.lean ====
/-
  The kernel's result as one function of its three arguments.

  Per edge `e` (the listed edges, then a self-loop per node) the program takes the clamped cosine of the feature
  rows of the edge's source and target; per node it sums the cosines of the edges whose raw target is the node,
  divides by their number (kept at least one), scales by the temperature and applies the logistic.
-/
import proofs.«118151_j824633721278_1_alg».proof.Proof.KernelRun
import proofs.«118151_j824633721278_1_alg».proof.Proof.KernelHost
import proofs.«118151_j824633721278_1_alg».proof.Proof.EdgeRegion
import proofs.«118151_j824633721278_1_alg».proof.Proof.GateRegion

set_option maxRecDepth 16384

noncomputable section

namespace Cert.KernelIdeal.Named

open Cert.KernelIdeal Cert.KernelIdeal.Gen Cert.EdgeCosine
open Idealize.ShloMosaic Idealize.ShloMosaic.TcCoe
open Idealize.SL Idealize.SL.Sem

/-- Every edge's source node and target node (the self-loops appended), as the program reads them off the edge list. -/
abbrev srcEnds (x2 : (⟨S2x1600000, .i32⟩ : BufTy).Contents (Elt Ideal)) : (⟨S1700000, .i32⟩ : BufTy).Contents (Elt Ideal) :=
  endpoints 0 slices_S2x1600000_S1x1600000_0_0 x2
abbrev tgtEnds (x2 : (⟨S2x1600000, .i32⟩ : BufTy).Contents (Elt Ideal)) : (⟨S1700000, .i32⟩ : BufTy).Contents (Elt Ideal) :=
  endpoints 1 slices_S2x1600000_S1x1600000_1_0 x2

/-- The clamped cosine of every edge's two feature rows, as a flat vector over the edges. -/
def simFlat (x0 : (⟨S100000x128, .f32⟩ : BufTy).Contents (Elt Ideal)) (x2 : (⟨S2x1600000, .i32⟩ : BufTy).Contents (Elt Ideal)) :
    (⟨S1700000, .f32⟩ : BufTy).Contents (Elt Ideal) :=
  shapeCast S1700000
    (edgeSim (E := 1700000) (D := 128) (gathered x0 (endpoints 0 slices_S2x1600000_S1x1600000_0_0 x2))
      (gathered x0 (endpoints 1 slices_S2x1600000_S1x1600000_1_0 x2)))
    shapeCasts_S1700000x1_S1700000

/-- The similarities summed onto the target nodes, and the number of edges landing at each node. -/
def nodeSums (x0 : (⟨S100000x128, .f32⟩ : BufTy).Contents (Elt Ideal)) (x2 : (⟨S2x1600000, .i32⟩ : BufTy).Contents (Elt Ideal)) :
    (⟨S100000, .f32⟩ : BufTy).Contents (Elt Ideal) :=
  ontoNodes (endpoints 1 slices_S2x1600000_S1x1600000_1_0 x2) (simFlat x0 x2)
def nodeCounts (x2 : (⟨S2x1600000, .i32⟩ : BufTy).Contents (Elt Ideal)) : (⟨S100000, .f32⟩ : BufTy).Contents (Elt Ideal) :=
  ontoNodes (endpoints 1 slices_S2x1600000_S1x1600000_1_0 x2)
    (broadcastInDim S1700000 ![] bcast_S_S1700000 (constant (F := Ideal) S_ .f32 0x3F800000#32))

/-- The kernel's result: the gate of each node's sum, count and the temperature. -/
def kernelOut (x0 : (⟨S100000x128, .f32⟩ : BufTy).Contents (Elt Ideal)) (x1 : (⟨S1, .f32⟩ : BufTy).Contents (Elt Ideal))
    (x2 : (⟨S2x1600000, .i32⟩ : BufTy).Contents (Elt Ideal)) : (⟨S100000, .f32⟩ : BufTy).Contents (Elt Ideal) :=
  shapeCast S100000
    (gate (N := 100000) (shapeCast S1x100000 (nodeSums x0 x2) shapeCasts_S100000_S1x100000)
      (shapeCast S1x100000 (nodeCounts x2) shapeCasts_S100000_S1x100000) (shapeCast S1x1 x1 shapeCasts_S1_S1x1))
    shapeCasts_S1x100000_S100000

variable (m : (ℓ : Loc nD τ sig) → Buf (Elt Ideal) ℓ) (ρ : Dev nD → PrngReg)

/-- The result buffer's final contents are that function of the launch contents of the arguments. -/
theorem kernel_value (c : Dev nD) :
    W5 m ρ c (Proc.devRef .tc main_v34)
      = kernelOut (m ((c.tc : Thread nD τ).loc main_arg0)) (m ((c.tc : Thread nD τ).loc main_arg1))
          (m ((c.tc : Thread nD τ).loc main_arg2)) := by
  rw [result_flat, gate_row, gate_final (V3 m ρ) c]
  dsimp only [sumArr, cntArr, tmpArr]
  rw [sums_row, counts_row, temp_row, tgt_nodes_kept, temp_kept2, sim_col, edge_final (V1 m ρ) c, tgt_nodes, temp_kept]
  dsimp only [srcArr, tgtArr]
  rw [src_rows, tgt_rows]
  rfl

/-- The run of the kernel's program with its result stated as `kernelOut` of the arguments. -/
theorem run_value : θ_run defs (onTc (τ := τ) (main (F := Ideal))) ⟨m, fun _ => 0, ρ⟩ (fun r => ∀ c : Dev nD,
      r.2.mem ((c.tc : Thread nD τ).loc main_v34)
        = kernelOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (kernel_value m ρ c), (h c).2⟩) (run_named m ρ)

end Cert.KernelIdeal.Named

end
-- ==== Proof.Consts.lean ====
/-
  The float constants the two programs spell, as the extended reals their words denote: `+0.0` is `0`,
  `1.0` is `1`, and the norm clamp `0x2B8CBCCC` (the single-precision word nearest `1e-12`) is a positive real.
-/
import Idealize.ShloMosaic.PureOps.Ideal
import Idealize.ShloMosaic.PureOps.Ideal.Laws

noncomputable section

namespace Cert.EdgeCosine

open Idealize.ShloMosaic

/-- `1.0` denotes `1`. -/
theorem ofBits_one : Ideal.ofBits .f32 0x3F800000#32 = 1 := by
  simp [Ideal.ofBits, Ideal.ieee, -EReal.coe_mul]; norm_num

/-- The clamp's real value. -/
def epsR : ℝ := 9223372 * (2 : ℝ) ^ (-63 : ℤ)

theorem epsR_pos : 0 < epsR := by unfold epsR; positivity

/-- The clamp word denotes that positive real. -/
theorem ofBits_eps : Ideal.ofBits .f32 0x2B8CBCCC#32 = ((epsR : ℝ) : EReal) := by
  unfold epsR
  simp [Ideal.ofBits, Ideal.ieee, -EReal.coe_mul]

end Cert.EdgeCosine

end
-- ==== Proof.LibRowGather.lean ====
/-
  A row gather read at an element.

  `table[idx]` over a rank-2 table `[N, D]` and a column `[E, 1]` of row numbers prints as a
  `stablehlo.gather` with the row axis collapsed and start-indexed, the feature axis the one offset axis, the
  index vector on axis 1 and slices `[1, D]`.  Result element `(e, k)` is the table at row `idx[e, 0]` — read as
  a signed integer and clamped into `[0, N − 1]` — and column `k`.  The row depends on the index array only,
  never on the table or the column.
-/
import Idealize.ShloMosaic.Lib.ValueIdx

noncomputable section

namespace Cert.EdgeCosine

open Idealize.ShloMosaic Idealize.ShloMosaic.ValueIdx

/-- The dimension numbers of a row gather, for a table `[N, D]`, start indices `[E, 1]` and a result `[E, D]`; their
    conditions `wf` are decided on a program's literal shapes. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into the table. -/
def rowAt {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the clamped row of `e`, column `k`. -/
theorem gather_row_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N E D wf) x idx (ix2 e k) = x (ix2 (rowAt hN idx e) k) := by
  unfold Host.gather
  refine congrArg x (funext fun a => Fin.ext ?_)
  match a with
  | ⟨0, _⟩ =>
    show (rowDims N E D wf).start (ix2 e k) idx 0 + (rowDims N E D wf).batchCoord (ix2 e k) 0
        + (rowDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e k) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e k) idx 1 + (rowDims N E D wf).batchCoord (ix2 e k) 1
        + (rowDims N E D wf).offCoord (ix2 e k) 1 = k.val
    rw [GatherDims.batchCoord_eq_zero _ _ _ List.not_mem_nil]
    unfold GatherDims.start
    rw [dif_neg (show (1 : Fin 2) ∉ (rowDims N E D wf).startIndexMap from fun h => absurd (congrArg Fin.val (List.mem_singleton.mp h)) (show ¬ (1 : Nat) = 0 by decide))]
    simp only [Nat.add_zero, Nat.zero_add]
    rfl

end Cert.EdgeCosine

end
-- ==== Proof.RefValue.lean ====
/-
  The reference's stages, read at an index.

  The reference normalises every row of the feature table by its clamped norm, gathers the normalised rows of
  each edge's source and target, and sums their products along the features; then, per node, the same sum over
  incoming edges, count, quotient, temperature and logistic (spelt `1 / (1 + e^(−x))`) as the kernel's second
  region.
-/
import proofs.«118151_j824633721278_1_alg».proof.Proof.Gen.ReferenceIdeal.Read
import proofs.«118151_j824633721278_1_alg».proof.Proof.Spec
import proofs.«118151_j824633721278_1_alg».proof.Proof.Consts
import proofs.«118151_j824633721278_1_alg».proof.Proof.LibRowGather
import Idealize.ShloMosaic.Lib.ValueIdx

noncomputable section

namespace Cert.ReferenceIdeal.RefValue

open Cert.ReferenceIdeal Cert.ReferenceIdeal.Gen Cert.ReferenceIdeal.Read Cert.EdgeCosine
open Idealize.ShloMosaic Idealize.ShloMosaic.ValueIdx
open scoped BigOperators

variable (x0 : (⟨S100000x128, .f32⟩ : BufTy).Contents (Elt Ideal)) (x1 : (⟨S1, .f32⟩ : BufTy).Contents (Elt Ideal))
  (x2 : (⟨S2x1600000, .i32⟩ : BufTy).Contents (Elt Ideal))

/-! ## The stages' index maps on literal coordinates -/

theorem idx27 (e : Fin 1700000) (k : Fin 128) : idx_main_v27 (ix1 e) k = ix2 e k :=
  funext fun a => Fin.ext (by match a with | ⟨0, _⟩ => rfl | ⟨1, _⟩ => rfl)
theorem idx10 (r : Fin 100000) (k : Fin 128) : idx_main_v10 (ix2 r k) = ix2 r (0 : Fin 1) :=
  funext fun a => Fin.ext (by match a with | ⟨0, _⟩ => rfl | ⟨1, _⟩ => rfl)
theorem idxc2 (r : Fin 100000) : idx_main_call0_v2 (ix2 r (0 : Fin 1)) = ix1 r :=
  funext fun a => Fin.ext (by match a with | ⟨0, _⟩ => rfl)
theorem idxc1 (r : Fin 100000) (j : Fin 128) : idx_main_call0_v1 (ix1 r) j = ix2 r j :=
  funext fun a => Fin.ext (by match a with | ⟨0, _⟩ => rfl | ⟨1, _⟩ => rfl)
theorem idx38 (n : Fin 100000) : idx_main_v38 (ix1 n) = ix1 (0 : Fin 1) :=
  funext fun a => Fin.ext (by match a with | ⟨0, _⟩ => rfl)

/-! ## The normalised table and the gathered rows -/

/-- An entry of the normalised table: the entry over its row's clamped norm. -/
theorem normed_apply (r : Fin 100000) (k : Fin 128) :
    val_main_v11 (F := Ideal) x0 (ix2 r k)
      = Ideal.div (x0 (ix2 r k))
          (max (Ideal.sqrt (Ideal.ofBits .f32 0x00000000#32 + ∑ j : Fin 128, x0 (ix2 r j) * x0 (ix2 r j)))
            (Ideal.ofBits .f32 0x2B8CBCCC#32)) := by
  rw [val_main_v11_apply, val_main_v10_apply, val_main_v9_apply, val_main_v8_apply, val_main_cst_apply, val_main_v7_apply,
    idx10, val_main_call0_v2_apply, idxc2, val_main_call0_v1_apply, val_main_call0_cst_apply]
  simp only [idxc1, val_main_call0_v0_apply, Ideal.hostDivf_def, Ideal.maximumf_def, Ideal.hostUnary_sqrt_def, Ideal.mulf_def,
    Ideal.ofBits_def]

theorem table_pos : 0 < 100000 := by omega

/-- The gathered source row of edge `e`, at feature `k`: the normalised table at the edge's clamped source row. -/
theorem srcRow_apply (e : Fin 1700000) (k : Fin 128) :
    val_main_v18 (F := Ideal) x0 x2 (ix2 e k)
      = val_main_v11 (F := Ideal) x0 (ix2 (rowAt table_pos (val_main_v17 (F := Ideal) x2) e) k) := by
  unfold val_main_v18
  exact gather_row_apply table_pos gather_S100000x128_S1700000x1_S1700000x128_1_0_n_n_0_1_1128_wf
    (val_main_v11 (F := Ideal) x0) (val_main_v17 (F := Ideal) x2) e k

/-- The gathered target row of edge `e`, at feature `k`. -/
theorem tgtRow_apply (e : Fin 1700000) (k : Fin 128) :
    val_main_v25 (F := Ideal) x0 x2 (ix2 e k)
      = val_main_v11 (F := Ideal) x0 (ix2 (rowAt table_pos (val_main_v24 (F := Ideal) x2) e) k) := by
  unfold val_main_v25
  exact gather_row_apply table_pos gather_S100000x128_S1700000x1_S1700000x128_1_0_n_n_0_1_1128_wf
    (val_main_v11 (F := Ideal) x0) (val_main_v24 (F := Ideal) x2) e k

/-- THE REFERENCE'S SIMILARITY of edge `e`: the sum over the features of the two normalised entries' product. -/
theorem refSim_apply (e : Fin 1700000) :
    val_main_v27 (F := Ideal) x0 x2 (ix1 e)
      = Ideal.ofBits .f32 0x00000000#32 + ∑ k : Fin 128,
          val_main_v11 (F := Ideal) x0 (ix2 (rowAt table_pos (val_main_v17 (F := Ideal) x2) e) k)
            * val_main_v11 (F := Ideal) x0 (ix2 (rowAt table_pos (val_main_v24 (F := Ideal) x2) e) k) := by
  rw [val_main_v27_apply, val_main_cst_3_apply]
  simp only [idx27, val_main_v26_apply, srcRow_apply, tgtRow_apply, Ideal.mulf_def, Ideal.ofBits_def]

/-! ## The node stage -/

/-- THE REFERENCE'S RESULT at node `n`: the gate of the node's sum, its count and the temperature. -/
theorem refOut_apply (n : Fin 100000) :
    val_main_v45 (F := Ideal) x0 x1 x2 (ix1 n)
      = gateAt (val_main_v30 (F := Ideal) x0 x2 (ix1 n)) (val_main_v34 (F := Ideal) x2 (ix1 n)) (x1 (ix1 (0 : Fin 1))) := by
  rw [val_main_v45_apply, val_main_v44_apply, val_main_cst_9_apply, val_main_v43_apply, val_main_v42_apply, val_main_cst_8_apply,
    val_main_v41_apply, val_main_v40_apply, val_main_v39_apply, val_main_v38_apply, idx38, val_main_v37_apply, val_main_v36_apply,
    val_main_v35_apply, val_main_cst_7_apply]
  simp only [Ideal.hostDivf_def, Ideal.addf_def, Ideal.hostUnary_exp_def, Ideal.hostNegf_def, Ideal.negf_def, Ideal.mulf_def,
    Ideal.maximumf_def, Ideal.ofBits_def]
  unfold gateAt Ideal.logistic
  rw [ofBits_one]

end Cert.ReferenceIdeal.RefValue

end
-- ==== Proof.CosineLaw.lean ====
/-
  The arithmetic that joins the two programs, on the extended reals.

  For two rows `a`, `b` of finite reals and a positive real clamp `e`, write
  `‖a‖ₑ = max (sqrt (∑ⱼ aⱼ²)) e`.  The reference normalises each row first and then takes the
  row-wise dot product, `∑ₖ (aₖ / ‖a‖ₑ) · (bₖ / ‖b‖ₑ)`; the kernel takes the dot product of the raw
  rows and divides once, `(∑ₖ aₖ · bₖ) / (‖a‖ₑ · ‖b‖ₑ)`.  Both clamped norms are positive reals, so
  the quotients are products with real reciprocals and the common factor leaves the sum.
-/
import Idealize.ShloMosaic.PureOps.Ideal
import Idealize.ShloMosaic.PureOps.Ideal.Laws

noncomputable section

namespace Cert.EdgeCosine

open Idealize.ShloMosaic
open scoped BigOperators

/-- A finite sum of reals, read in the extended reals, is the sum of the readings. -/
theorem coe_sum {K : Type} [Fintype K] (f : K → ℝ) :
    (∑ k, ((f k : ℝ) : EReal)) = ((∑ k, f k : ℝ) : EReal) := by
  classical
  refine Finset.induction_on (Finset.univ : Finset K) (by simp) ?_
  intro k s hk ih
  rw [Finset.sum_insert hk, Finset.sum_insert hk, ih, EReal.coe_add]

/-- The clamped norm of a real row: the square root of the sum of squares, kept at least `e`. -/
def cnorm {K : Type} [Fintype K] (e : ℝ) (a : K → ℝ) : ℝ := max (Real.sqrt (∑ j, a j * a j)) e

theorem cnorm_pos {K : Type} [Fintype K] {e : ℝ} (he : 0 < e) (a : K → ℝ) : 0 < cnorm e a :=
  lt_of_lt_of_le he (le_max_right _ _)

/-- The extended-real spelling of the clamped norm, as both programs compute it, is that real. -/
theorem clamp_eq {K : Type} [Fintype K] (e : ℝ) (a : K → ℝ) :
    max (Ideal.sqrt (0 + ∑ j, ((a j : ℝ) : EReal) * ((a j : ℝ) : EReal))) ((e : ℝ) : EReal)
      = ((cnorm e a : ℝ) : EReal) := by
  have hs : (∑ j, ((a j : ℝ) : EReal) * ((a j : ℝ) : EReal)) = ((∑ j, a j * a j : ℝ) : EReal) := by
    rw [← coe_sum]; exact Finset.sum_congr rfl fun j _ => (EReal.coe_mul _ _).symm
  have hnn : ¬ (∑ j, a j * a j : ℝ) < 0 :=
    not_lt.mpr (Finset.sum_nonneg fun j _ => mul_self_nonneg (a j))
  rw [zero_add, hs, Ideal.sqrt_coe, if_neg hnn, cnorm]
  exact (Monotone.map_max (f := fun x : ℝ => (x : EReal)) (fun _ _ h => EReal.coe_le_coe_iff.mpr h)).symm

/-- Normalise-then-dot equals dot-then-divide, for real rows and a positive real clamp. -/
theorem normalised_dot {K : Type} [Fintype K] (a b : K → ℝ) {e : ℝ} (he : 0 < e) :
    (0 + ∑ k, Ideal.div ((a k : ℝ) : EReal)
          (max (Ideal.sqrt (0 + ∑ j, ((a j : ℝ) : EReal) * ((a j : ℝ) : EReal))) ((e : ℝ) : EReal))
        * Ideal.div ((b k : ℝ) : EReal)
          (max (Ideal.sqrt (0 + ∑ j, ((b j : ℝ) : EReal) * ((b j : ℝ) : EReal))) ((e : ℝ) : EReal)))
      = Ideal.div (0 + ∑ k, ((a k : ℝ) : EReal) * ((b k : ℝ) : EReal))
          (max (Ideal.sqrt (0 + ∑ j, ((a j : ℝ) : EReal) * ((a j : ℝ) : EReal))) ((e : ℝ) : EReal)
            * max (Ideal.sqrt (0 + ∑ j, ((b j : ℝ) : EReal) * ((b j : ℝ) : EReal))) ((e : ℝ) : EReal)) := by
  have hA := cnorm_pos he a
  have hB := cnorm_pos he b
  rw [clamp_eq, clamp_eq, ← EReal.coe_mul, Ideal.div_coe (mul_pos hA hB).ne', zero_add, zero_add]
  have hd : (∑ k, ((a k : ℝ) : EReal) * ((b k : ℝ) : EReal)) = ((∑ k, a k * b k : ℝ) : EReal) := by
    rw [← coe_sum]; exact Finset.sum_congr rfl fun k _ => (EReal.coe_mul _ _).symm
  have hl : (∑ k, Ideal.div ((a k : ℝ) : EReal) ((cnorm e a : ℝ) : EReal)
        * Ideal.div ((b k : ℝ) : EReal) ((cnorm e b : ℝ) : EReal))
      = ((∑ k, (a k * (1 / cnorm e a)) * (b k * (1 / cnorm e b)) : ℝ) : EReal) := by
    rw [← coe_sum]
    refine Finset.sum_congr rfl fun k _ => ?_
    rw [Ideal.div_coe hA.ne', Ideal.div_coe hB.ne', ← EReal.coe_mul, ← EReal.coe_mul, ← EReal.coe_mul]
  rw [hl, hd, ← EReal.coe_mul, Finset.sum_mul]
  refine congrArg _ (Finset.sum_congr rfl fun k _ => ?_)
  field_simp

end Cert.EdgeCosine

end
-- ==== Proof.Bridge.lean ====
/-
  The two programs compute one function.

  For an edge with clamped source row `s` and target row `t` of the feature table `x`, the reference sums
  `(x[s,k] / ‖x[s]‖ₑ) · (x[t,k] / ‖x[t]‖ₑ)` over the features `k` and the kernel divides `∑ₖ x[s,k] · x[t,k]` by
  `‖x[s]‖ₑ · ‖x[t]‖ₑ`; over a table of reals these agree (the clamped norms are positive reals).  Both programs
  read the same rows: the row a gather reads depends on the index column only, and the two columns are built by
  the same operations.  From the per-edge similarities on, the two programs apply the same operations: the sum
  onto the target nodes, the count, the quotient, the temperature and the logistic.
-/
import proofs.«118151_j824633721278_1_alg».proof.Proof.KernelValue
import proofs.«118151_j824633721278_1_alg».proof.Proof.RefValue
import proofs.«118151_j824633721278_1_alg».proof.Proof.CosineLaw
import Idealize.ShloMosaic.Lib.ValueLayout

noncomputable section

namespace Cert.Proof.Bridge

open Cert.EdgeCosine Idealize.ShloMosaic Idealize.ShloMosaic.ValueIdx
open Cert.KernelIdeal.Named (kernelOut nodeSums nodeCounts simFlat gathered srcEnds tgtEnds wrapCol ontoNodes)
open Cert.ReferenceIdeal.Read Cert.ReferenceIdeal.RefValue
open scoped BigOperators

/-- A one-column matrix flattened reads, at `e`, the column at `(e, 0)`. -/
theorem shapeCast_flat_apply {α : Type} {a : ℕ} (x : (⟨2, ![a, 1]⟩ : Shape).Idx → α)
    (h : (⟨2, ![a, 1]⟩ : Shape).ShapeCasts ⟨1, ![a]⟩) (e : Fin a) :
    shapeCast ⟨1, ![a]⟩ x h (ix1 e) = x (ix2 e (0 : Fin 1)) :=
  shapeCast_apply x h _ _ (by
    rw [Shape.rowMajor_val_two, Shape.rowMajor_val_one]
    show e.val * 1 + 0 = e.val
    omega)

variable (x0 : (⟨Cert.KernelIdeal.S100000x128, .f32⟩ : BufTy).Contents (Elt Ideal))
  (x1 : (⟨Cert.KernelIdeal.S1, .f32⟩ : BufTy).Contents (Elt Ideal))
  (x2 : (⟨Cert.KernelIdeal.S2x1600000, .i32⟩ : BufTy).Contents (Elt Ideal))

/-- The two programs build their source and target index columns by the same operations. -/
theorem srcCol_eq : val_main_v17 (F := Ideal) x2 = wrapCol (srcEnds x2) := rfl
theorem tgtCol_eq : val_main_v24 (F := Ideal) x2 = wrapCol (tgtEnds x2) := rfl

/-- Row `e` of the kernel's gathered source rows is the table's clamped source row of edge `e`. -/
theorem src_row (e : Fin 1700000) :
    rowOf (gathered x0 (srcEnds x2)) e = fun k => x0 (ix2 (rowAt table_pos (val_main_v17 (F := Ideal) x2) e) k) := by
  funext k
  unfold rowOf gathered
  rw [srcCol_eq]
  exact gather_row_apply table_pos Cert.KernelIdeal.Facts₀.gather_S100000x128_S1700000x1_S1700000x128_1_0_n_n_0_1_1128_wf
    x0 (wrapCol (srcEnds x2)) e k

theorem tgt_row (e : Fin 1700000) :
    rowOf (gathered x0 (tgtEnds x2)) e = fun k => x0 (ix2 (rowAt table_pos (val_main_v24 (F := Ideal) x2) e) k) := by
  funext k
  unfold rowOf gathered
  rw [tgtCol_eq]
  exact gather_row_apply table_pos Cert.KernelIdeal.Facts₀.gather_S100000x128_S1700000x1_S1700000x128_1_0_n_n_0_1_1128_wf
    x0 (wrapCol (tgtEnds x2)) e k

/-- THE EDGE SIMILARITIES AGREE over a table of reals: dot-then-divide is normalise-then-dot. -/
theorem simFlat_eq (hfin : ∀ i, ∃ r : ℝ, x0 i = (r : EReal)) : simFlat x0 x2 = val_main_v27 (F := Ideal) x0 x2 := by
  funext i
  obtain ⟨e, rfl⟩ : ∃ e : Fin 1700000, i = ix1 e := ⟨i 0, eq_ix1 i⟩
  rw [refSim_apply]
  unfold simFlat
  rw [shapeCast_flat_apply]
  unfold edgeSim
  show rowCos (rowOf (gathered x0 (srcEnds x2)) e) (rowOf (gathered x0 (tgtEnds x2)) e) = _
  rw [src_row, tgt_row]
  simp only [normed_apply]
  choose a ha using fun k => hfin (ix2 (rowAt table_pos (val_main_v17 (F := Ideal) x2) e) k)
  choose b hb using fun k => hfin (ix2 (rowAt table_pos (val_main_v24 (F := Ideal) x2) e) k)
  unfold rowCos
  simp only [ha, hb, Ideal.ofBits_zero_f32, ofBits_eps]
  exact (normalised_dot a b epsR_pos).symm

/-- The per-node sums and counts agree. -/
theorem sums_eq (hfin : ∀ i, ∃ r : ℝ, x0 i = (r : EReal)) : nodeSums x0 x2 = val_main_v30 (F := Ideal) x0 x2 := by
  unfold nodeSums
  rw [simFlat_eq x0 x2 hfin]
  rfl
theorem counts_eq : nodeCounts x2 = val_main_v34 (F := Ideal) x2 := rfl

/-- THE RESULTS AGREE over a table of reals. -/
theorem out_eq (hfin : ∀ i, ∃ r : ℝ, x0 i = (r : EReal)) : kernelOut x0 x1 x2 = val_main_v45 (F := Ideal) x0 x1 x2 := by
  funext i
  obtain ⟨n, rfl⟩ : ∃ n : Fin 100000, i = ix1 n := ⟨i 0, eq_ix1 i⟩
  rw [refOut_apply]
  unfold kernelOut
  rw [shapeCast_1a_a_apply]
  unfold gate
  rw [shapeCast_a_1a_apply, shapeCast_a_1a_apply, shapeCast_a_1a_apply, sums_eq x0 x2 hfin, counts_eq]

end Cert.Proof.Bridge

end
-- ==== Proof.lean ====
/-
  The gate of mean neighbour similarity: the kernel's program and its reference compute one function.

  Both programs take a feature table `x` of 100000 rows, a temperature and an edge list; append a self-loop per
  node; and for every edge take the cosine of its source row and its target row, each norm clamped from below by
  the same small constant.  The reference divides every table row by its clamped norm first and sums the
  products of the two gathered rows; the kernel sums the products of the raw gathered rows in its first region
  and divides once by the product of the two clamped norms.  Over a table of finite numbers — the precondition —
  the clamped norms are positive reals and the two are equal (Proof/CosineLaw.lean, Proof/Bridge.lean).  The
  similarities are then summed onto their target nodes, divided by the number of incoming edges (at least one),
  scaled by the temperature and passed through the logistic — by host operations and a second region in the
  kernel's program (Proof/KernelValue.lean), by host operations alone in the reference (Proof/RefValue.lean), the
  logistic being `1 / (1 + e^(−x))` on both sides.

  The three frames are the generated ones (the reference's is its generated run with the result dropped); the
  idealization rewrote nothing, so `preserves` is trivial.
-/
import proofs.«118151_j824633721278_1_alg».proof.Defs
import proofs.«118151_j824633721278_1_alg».proof.Proof.Gen.Kernel
import proofs.«118151_j824633721278_1_alg».proof.Proof.Gen.Kernel.Skeleton
import proofs.«118151_j824633721278_1_alg».proof.Proof.Gen.Kernel.Launch
import proofs.«118151_j824633721278_1_alg».proof.Proof.Gen.Kernel.Points
import proofs.«118151_j824633721278_1_alg».proof.Proof.Gen.Kernel.Frame
import proofs.«118151_j824633721278_1_alg».proof.Proof.Gen.KernelIdeal
import proofs.«118151_j824633721278_1_alg».proof.Proof.Gen.KernelIdeal.Skeleton
import proofs.«118151_j824633721278_1_alg».proof.Proof.Gen.KernelIdeal.Launch
import proofs.«118151_j824633721278_1_alg».proof.Proof.Gen.KernelIdeal.Points
import proofs.«118151_j824633721278_1_alg».proof.Proof.Gen.KernelIdeal.Frame
import proofs.«118151_j824633721278_1_alg».proof.Proof.Gen.ReferenceIdeal
import proofs.«118151_j824633721278_1_alg».proof.Proof.Gen.Pre_finite_inputs
import proofs.«118151_j824633721278_1_alg».proof.Proof.Gen.ReferenceIdeal.Run
import proofs.«118151_j824633721278_1_alg».proof.Proof.Gen.ReferenceIdeal.Read
import proofs.«118151_j824633721278_1_alg».proof.Proof.FiniteInputs
import proofs.«118151_j824633721278_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel's program ends with the gate of the clamped cosines
    (its run, read), the reference with its composed term (its generated run), and over a finite table the two
    are one array. -/
theorem algebraic : Cert.algebraic_KernelIdeal_ReferenceIdeal := by
  intro m ρ m' ρ' hpre hagree
  refine ⟨fun c => Cert.KernelIdeal.Named.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Named.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2]
  exact (Cert.Proof.Bridge.out_eq _ _ _ (Cert.EdgeCosine.table_real _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
